-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x1024 : Shape := ⟨3, ![4, 4096, 1024]⟩
abbrev S8 : Shape := ⟨1, ![8]⟩
abbrev S1024x8 : Shape := ⟨2, ![1024, 8]⟩
abbrev S_ : Shape := ⟨0, ![]⟩

class Facts : Prop where
  bcast_S_S4x4096x1024 : S_.BroadcastsInDim S4x4096x1024 (![] : Fin 0 → Fin S4x4096x1024.rank)
  reducesTo_S4x4096x1024_S_d0_1_2 : S4x4096x1024.ReducesTo [0, 1, 2] S_
  h_S_ : 0 < S_.numel
  bcast_S_S8 : S_.BroadcastsInDim S8 (![] : Fin 0 → Fin S8.rank)
  reducesTo_S8_S_d0 : S8.ReducesTo [0] S_
  bcast_S_S1024x8 : S_.BroadcastsInDim S1024x8 (![] : Fin 0 → Fin S1024x8.rank)
  reducesTo_S1024x8_S_d0_1 : S1024x8.ReducesTo [0, 1] S_

variable [Facts]

def fn {F : FTy → Type} [FloatOps F] (main_arg0 : FVec F S4x4096x1024 .f32) (main_arg1 : FVec F S8 .f32) (main_arg2 : FVec F S1024x8 .f32) : IVec S_ 1 :=
  let main_v0 : FVec F S4x4096x1024 .f32 := Host.absf main_arg0
  let main_cst : FVec F S_ .f32 := constant S_ .f32 0x7F800000#32
  let main_v1 : FVec F S4x4096x1024 .f32 := broadcastInDim S4x4096x1024 ![] bcast_S_S4x4096x1024 main_cst
  let main_v2 : IVec S4x4096x1024 1 := cmpf .olt main_v0 main_v1
  let main_c : IVec S_ 1 := constantI S_ 1 1#1
  let main_v3 : IVec S_ 1 := (fun x v => Host.reduce IntOp.andi x v reducesTo_S4x4096x1024_S_d0_1_2 h_S_) main_v2 main_c
  let main_v4 : FVec F S8 .f32 := Host.absf main_arg1
  let main_cst_0 : FVec F S_ .f32 := constant S_ .f32 0x7F800000#32
  let main_v5 : FVec F S8 .f32 := broadcastInDim S8 ![] bcast_S_S8 main_cst_0
  let main_v6 : IVec S8 1 := cmpf .olt main_v4 main_v5
  let main_c_1 : IVec S_ 1 := constantI S_ 1 1#1
  let main_v7 : IVec S_ 1 := (fun x v => Host.reduce IntOp.andi x v reducesTo_S8_S_d0 h_S_) main_v6 main_c_1
  let main_v8 : IVec S_ 1 := andi main_v3 main_v7
  let main_v9 : FVec F S1024x8 .f32 := Host.absf main_arg2
  let main_cst_2 : FVec F S_ .f32 := constant S_ .f32 0x7F800000#32
  let main_v10 : FVec F S1024x8 .f32 := broadcastInDim S1024x8 ![] bcast_S_S1024x8 main_cst_2
  let main_v11 : IVec S1024x8 1 := cmpf .olt main_v9 main_v10
  let main_c_3 : IVec S_ 1 := constantI S_ 1 1#1
  let main_v12 : IVec S_ 1 := (fun x v => Host.reduce IntOp.andi x v reducesTo_S1024x8_S_d0_1 h_S_) main_v11 main_c_3
  let main_v13 : IVec S_ 1 := andi main_v8 main_v12
  main_v13
-- ==== Kernel.lean ====
abbrev S4x4096x1024 : Shape := ⟨3, ![4, 4096, 1024]⟩
abbrev S8 : Shape := ⟨1, ![8]⟩
abbrev S1024x8 : Shape := ⟨2, ![1024, 8]⟩
abbrev S4x4096x8 : Shape := ⟨3, ![4, 4096, 8]⟩
abbrev S16384x8 : Shape := ⟨2, ![16384, 8]⟩
abbrev S1x8 : Shape := ⟨2, ![1, 8]⟩
abbrev S8x1024 : Shape := ⟨2, ![8, 1024]⟩
abbrev S16384x1024 : Shape := ⟨2, ![16384, 1024]⟩
abbrev S1024x1024 : Shape := ⟨2, ![1024, 1024]⟩

abbrev nBuf : Space → Nat
  | .hbm => 9
  | .vmem => 6
  | .smem => 0
  | _ => 0

abbrev bufTy : (tb : Table) → Fin (tcTables nBuf tb) → BufTy
  | .hbm, ⟨0, _⟩ => ⟨S4x4096x1024, .f32⟩
  | .hbm, ⟨1, _⟩ => ⟨S8, .f32⟩
  | .hbm, ⟨2, _⟩ => ⟨S1024x8, .f32⟩
  | .hbm, ⟨3, _⟩ => ⟨S4x4096x8, .f32⟩
  | .hbm, ⟨4, _⟩ => ⟨S16384x8, .f32⟩
  | .hbm, ⟨5, _⟩ => ⟨S1x8, .f32⟩
  | .hbm, ⟨6, _⟩ => ⟨S8x1024, .f32⟩
  | .hbm, ⟨7, _⟩ => ⟨S16384x1024, .f32⟩
  | .hbm, ⟨8, _⟩ => ⟨S4x4096x1024, .f32⟩
  | .local _ .vmem, ⟨0, _⟩ => ⟨S1024x8, .f32⟩
  | .local _ .vmem, ⟨1, _⟩ => ⟨S1024x8, .f32⟩
  | .local _ .vmem, ⟨2, _⟩ => ⟨S1x8, .f32⟩
  | .local _ .vmem, ⟨3, _⟩ => ⟨S8x1024, .f32⟩
  | .local _ .vmem, ⟨4, _⟩ => ⟨S1024x1024, .f32⟩
  | .local _ .vmem, ⟨5, _⟩ => ⟨S1024x1024, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x8 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x8 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  slices_S4x4096x1024_S4x4096x8_0_0_0 : S4x4096x1024.Slices ![0, 0, 0] S4x4096x8
  shapeCasts_S4x4096x8_S16384x8 : S4x4096x8.ShapeCasts S16384x8
  shapeCasts_S8_S1x8 : S8.ShapeCasts S1x8
  transposes_S1024x8_S8x1024_1_0 : S1024x8.Transposes [1, 0] S8x1024
  inb_S1024x8_S1024x8_0_0 : ∀ a, (![0, 0] : Fin 2 → Nat) a + S1024x8.size a ≤ S1024x8.size a
  h_S1024x8 : 0 < S1024x8.numel
  shapeCasts_S1024x8_S1024x8 : S1024x8.ShapeCasts S1024x8
  inb_S1x8_S1x8_0_0 : ∀ a, (![0, 0] : Fin 2 → Nat) a + S1x8.size a ≤ S1x8.size a
  h_S1x8 : 0 < S1x8.numel
  shapeCasts_S1x8_S1x8 : S1x8.ShapeCasts S1x8
  broadcasts_S1x8_S1024x8 : S1x8.Broadcasts S1024x8
  bitsLt_bf16_f32 : FTy.bits .bf16 < FTy.bits .f32
  inb_S8x1024_S8x1024_0_0 : ∀ a, (![0, 0] : Fin 2 → Nat) a + S8x1024.size a ≤ S8x1024.size a
  h_S8x1024 : 0 < S8x1024.numel
  shapeCasts_S8x1024_S8x1024 : S8x1024.ShapeCasts S8x1024
  inb_S1024x1024_S1024x1024_0_0 : ∀ a, (![0, 0] : Fin 2 → Nat) a + S1024x1024.size a ≤ S1024x1024.size a
  h_S1024x1024 : 0 < S1024x1024.numel
  shapeCasts_S16384x1024_S4x4096x1024 : S16384x1024.ShapeCasts S4x4096x1024
  dot_S1024x8_S8x1024_S1024x1024_1_0_0_1_n_n_wf : DotDims.WF S1024x8 S8x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x8.size a ≤ S16384x8.size a
  hwx0_0 : ∀ i : grid0.Coords, EltTy.bits .f32 = 32 ∨ (Rect.block (s := S16384x8) S1024x8.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x8.size a ≤ S1x8.size a
  hwx0_1 : ∀ i : grid0.Coords, EltTy.bits .f32 = 32 ∨ (Rect.block (s := S1x8) S1x8.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S8x1024.size a ≤ S8x1024.size a
  hwx0_2 : ∀ i : grid0.Coords, EltTy.bits .f32 = 32 ∨ (Rect.block (s := S8x1024) S8x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S16384x1024.size a
  hwx0_3 : ∀ i : grid0.Coords, EltTy.bits .f32 = 32 ∨ (Rect.block (s := S16384x1024) S1024x1024.size (cc0_transform_3 i) (hinb0_3 i)).WholeWords (EltTy.packing .f32)

variable [Facts₀]

def dot_S1024x8_S8x1024_S1024x1024_1_0_0_1_n_n : DotDims S1024x8 S8x1024 S1024x1024 where
  lhsContracting := [1]
  rhsContracting := [0]
  lhsNonContracting := [0]
  rhsNonContracting := [1]
  lhsBatch := []
  rhsBatch := []
  wf := dot_S1024x8_S8x1024_S1024x1024_1_0_0_1_n_n_wf

abbrev win0_0 : Pipeline.Window sig grid0 :=
  Pipeline.Window.ofSpec (Memref.whole main_v1) S1024x8.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1x8.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S8x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S1024x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4x4096x1024 : Shape := ⟨3, ![4, 4096, 1024]⟩
abbrev S8 : Shape := ⟨1, ![8]⟩
abbrev S1024x8 : Shape := ⟨2, ![1024, 8]⟩
abbrev S4x4096x8 : Shape := ⟨3, ![4, 4096, 8]⟩
abbrev S1x1x8 : Shape := ⟨3, ![1, 1, 8]⟩

abbrev nBuf : Space → Nat
  | .hbm => 9
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S8, .f32⟩
  | .hbm, ⟨2, _⟩ => ⟨S1024x8, .f32⟩
  | .hbm, ⟨3, _⟩ => ⟨S4x4096x8, .f32⟩
  | .hbm, ⟨4, _⟩ => ⟨S1x1x8, .f32⟩
  | .hbm, ⟨5, _⟩ => ⟨S4x4096x8, .f32⟩
  | .hbm, ⟨6, _⟩ => ⟨S4x4096x8, .f32⟩
  | .hbm, ⟨7, _⟩ => ⟨S4x4096x8, .f32⟩
  | .hbm, ⟨8, _⟩ => ⟨S4x4096x1024, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]

class Facts₀ : Prop where
  slices_S4x4096x1024_S4x4096x8_0_0_0 : S4x4096x1024.Slices ![0, 0, 0] S4x4096x8
  bcast_S8_S1x1x8_2 : S8.BroadcastsInDim S1x1x8 (![2] : Fin 1 → Fin S1x1x8.rank)
  bcast_S1x1x8_S4x4096x8_0_1_2 : S1x1x8.BroadcastsInDim S4x4096x8 (![0, 1, 2] : Fin 3 → Fin S4x4096x8.rank)
  dot_S4x4096x8_S1024x8_S4x4096x1024_2_1_01_0_n_n_wf : DotDims.WF S4x4096x8 S1024x8 S4x4096x1024 [2] [1] [0, 1] [0] [] []

variable [Facts₀]

def dot_S4x4096x8_S1024x8_S4x4096x1024_2_1_01_0_n_n : DotDims S4x4096x8 S1024x8 S4x4096x1024 where
  lhsContracting := [2]
  rhsContracting := [1]
  lhsNonContracting := [0, 1]
  rhsNonContracting := [0]
  lhsBatch := []
  rhsBatch := []
  wf := dot_S4x4096x8_S1024x8_S4x4096x1024_2_1_01_0_n_n_wf

class Facts : Prop extends Facts₀ where

variable [Facts]
-- ==== Proof.CosProj.lean ====
/-
  The function both programs compute. For a token (b, s) and an output feature e,

      out[b, s, e] = Σ_{k < 8} cos (x[b, s, k] + θ[k]) · W[e, k]

  on the extended reals: only the first 8 of a token's 1024 features are read. The same sum written over the
  re-laid operands — the tokens flattened to 16384 rows of 8 live features, θ as one row, W transposed — is
  `rowProj`; `reshape_rowProj` says that re-laying the operands, taking `rowProj` and splitting the rows back into
  (b, s) is `proj`: row b·4096 + s of the flattened tokens is token (b, s), and the transposed matrix at (k, e) is
  W at (e, k). No law of arithmetic is used: the two sums have the same terms in the same order.
-/
import Idealize.ShloMosaic.Lib.ValueIdx
import Idealize.ShloMosaic.Lib.Pipeline.Value
import Idealize.ShloMosaic.Lib.ValueLayout

noncomputable section

open scoped BigOperators

namespace Cert.CosProj

open Idealize.ShloMosaic Idealize.ShloMosaic.ValueIdx

/-- A live feature k < 8 as a feature index below 1024. -/
abbrev live (k : Fin 8) : Fin 1024 := Fin.castLE (by decide) k

/-- The result at token (b, s), output feature e. -/
def projAt (x : (⟨3, ![4, 4096, 1024]⟩ : Shape).Idx → EReal) (θ : (⟨1, ![8]⟩ : Shape).Idx → EReal)
    (w : (⟨2, ![1024, 8]⟩ : Shape).Idx → EReal) (b : Fin 4) (s : Fin 4096) (e : Fin 1024) : EReal :=
  ∑ k : Fin 8, Ideal.cos (x (ix3 b s (live k)) + θ (ix1 k)) * w (ix2 e k)

/-- The whole result array. -/
def proj (x : (⟨3, ![4, 4096, 1024]⟩ : Shape).Idx → EReal) (θ : (⟨1, ![8]⟩ : Shape).Idx → EReal)
    (w : (⟨2, ![1024, 8]⟩ : Shape).Idx → EReal) : (⟨3, ![4, 4096, 1024]⟩ : Shape).Idx → EReal :=
  fun i => projAt x θ w (i 0) (i 1) (i 2)

/-- The same sum over re-laid operands, at row r and output feature e: a holds the live features row by row, t is θ
    as one row, wt is W transposed. -/
def rowProjAt (a : (⟨2, ![16384, 8]⟩ : Shape).Idx → EReal) (t : (⟨2, ![1, 8]⟩ : Shape).Idx → EReal)
    (wt : (⟨2, ![8, 1024]⟩ : Shape).Idx → EReal) (r : Fin 16384) (e : Fin 1024) : EReal :=
  ∑ k : Fin 8, Ideal.cos (a (ix2 r k) + t (ix2 (0 : Fin 1) k)) * wt (ix2 k e)

/-- As an array of 16384 rows. -/
def rowProj (a : (⟨2, ![16384, 8]⟩ : Shape).Idx → EReal) (t : (⟨2, ![1, 8]⟩ : Shape).Idx → EReal)
    (wt : (⟨2, ![8, 1024]⟩ : Shape).Idx → EReal) : (⟨2, ![16384, 1024]⟩ : Shape).Idx → EReal :=
  fun j => rowProjAt a t wt (j 0) (j 1)

/-- Row b·4096 + s of the flattened live features is token (b, s)'s first 8 features. -/
theorem rows_apply (x : (⟨3, ![4, 4096, 1024]⟩ : Shape).Idx → EReal)
    (hsl : (⟨3, ![4, 4096, 1024]⟩ : Shape).Slices ![0, 0, 0] ⟨3, ![4, 4096, 8]⟩)
    (hc : (⟨3, ![4, 4096, 8]⟩ : Shape).ShapeCasts ⟨2, ![16384, 8]⟩)
    (b : Fin 4) (s : Fin 4096) (r : Fin 16384) (hr : r.val = b.val * 4096 + s.val) (k : Fin 8) :
    shapeCast ⟨2, ![16384, 8]⟩ (extractStridedSlice ⟨3, ![4, 4096, 8]⟩ ![0, 0, 0] x hsl) hc (ix2 r k)
      = x (ix3 b s (live k)) := by
  refine (shapeCast_apply _ hc (ix2 r k) (ix3 b s k) ?_).trans ?_
  · rw [Shape.rowMajor_val_three, Shape.rowMajor_val_two]
    show (b.val * 4096 + s.val) * 8 + k.val = r.val * 8 + k.val
    rw [hr]
  · exact extractStridedSlice_apply ![0, 0, 0] x hsl (ix3 b s k) (ix3 b s (live k)) (fun a => match a with
      | ⟨0, _⟩ => by show b.val = 0 + b.val; omega
      | ⟨1, _⟩ => by show s.val = 0 + s.val; omega
      | ⟨2, _⟩ => by show k.val = 0 + k.val; omega)

/-- Re-lay the operands, take the row form, split the rows back into (b, s): the result array. -/
theorem reshape_rowProj (x : (⟨3, ![4, 4096, 1024]⟩ : Shape).Idx → EReal) (θ : (⟨1, ![8]⟩ : Shape).Idx → EReal)
    (w : (⟨2, ![1024, 8]⟩ : Shape).Idx → EReal)
    (hsl : (⟨3, ![4, 4096, 1024]⟩ : Shape).Slices ![0, 0, 0] ⟨3, ![4, 4096, 8]⟩)
    (hc : (⟨3, ![4, 4096, 8]⟩ : Shape).ShapeCasts ⟨2, ![16384, 8]⟩)
    (hθ : (⟨1, ![8]⟩ : Shape).ShapeCasts ⟨2, ![1, 8]⟩)
    (hw : (⟨2, ![1024, 8]⟩ : Shape).Transposes [1, 0] ⟨2, ![8, 1024]⟩)
    (ho : (⟨2, ![16384, 1024]⟩ : Shape).ShapeCasts ⟨3, ![4, 4096, 1024]⟩) :
    shapeCast ⟨3, ![4, 4096, 1024]⟩
        (rowProj (shapeCast ⟨2, ![16384, 8]⟩ (extractStridedSlice ⟨3, ![4, 4096, 8]⟩ ![0, 0, 0] x hsl) hc)
          (shapeCast ⟨2, ![1, 8]⟩ θ hθ) (transpose ⟨2, ![8, 1024]⟩ [1, 0] w hw)) ho
      = proj x θ w := by
  funext i
  obtain ⟨b, s, e, rfl⟩ : ∃ (b : Fin 4) (s : Fin 4096) (e : Fin 1024), i = ix3 b s e := ⟨i 0, i 1, i 2, eq_ix3 i⟩
  have hlt : b.val * 4096 + s.val < 16384 := by have := b.isLt; have := s.isLt; omega
  refine (shapeCast_apply _ ho (ix3 b s e) (ix2 (⟨b.val * 4096 + s.val, hlt⟩ : Fin 16384) e) ?_).trans ?_
  · rw [Shape.rowMajor_val_three, Shape.rowMajor_val_two]
    rfl
  · show rowProjAt _ _ _ (⟨b.val * 4096 + s.val, hlt⟩ : Fin 16384) e = projAt x θ w b s e
    unfold rowProjAt projAt
    refine Finset.sum_congr rfl fun k _ => ?_
    rw [rows_apply x hsl hc b s ⟨b.val * 4096 + s.val, hlt⟩ rfl k, shapeCast_a_1a_apply θ hθ (0 : Fin 1) k,
      transpose_ix2_apply w hw k e]

end Cert.CosProj

end
-- ==== Proof.RefCosProj.lean ====
/-
  The reference's result is the specified array. Read one operation at a time, the reference's einsum at (b, s, e)
  is the sum over k < 8 of cos (x[b, s, k] + θ[k]) · W[e, k]: the slice keeps a token's first 8 features where they
  are, the two broadcasts put θ[k] under every token, and the contraction pairs feature k of the cosines with column
  k of row e of W. The host's cosine is the extended reals' cosine.
-/
import proofs.«180665_j65481071397690_1_alg».proof.Proof.Gen.ReferenceIdeal.Read
import proofs.«180665_j65481071397690_1_alg».proof.Proof.CosProj

noncomputable section

open scoped BigOperators

namespace Cert.ReferenceIdeal.RefValue

open Cert.ReferenceIdeal Cert.ReferenceIdeal.Read Idealize.ShloMosaic Idealize.ShloMosaic.ValueIdx Cert.CosProj

/-- The last stage of the reference, as a function of the three arguments, is `proj`. -/
theorem val_eq_proj (x0 : (⟨S4x4096x1024, .f32⟩ : BufTy).Contents (Elt Ideal)) (x1 : (⟨S8, .f32⟩ : BufTy).Contents (Elt Ideal))
    (x2 : (⟨S1024x8, .f32⟩ : BufTy).Contents (Elt Ideal)) :
    val_main_v5 (F := Ideal) x0 x1 x2 = proj x0 x1 x2 := by
  funext i
  rw [val_main_v5_apply]
  show _ = projAt x0 x1 x2 (i 0) (i 1) (i 2)
  unfold projAt
  refine Finset.sum_congr rfl fun k _ => ?_
  rw [val_main_v4_apply, val_main_v3_apply, val_main_v0_apply, val_main_v2_apply, val_main_v1_apply]
  have e0 : idx_main_v0 (lidx_main_v5 i k) = ix3 (i 0) (i 1) (live k) :=
    funext fun a => Fin.ext (by match a with | ⟨0, _⟩ => rfl | ⟨1, _⟩ => rfl | ⟨2, _⟩ => rfl)
  have e1 : idx_main_v1 (idx_main_v2 (lidx_main_v5 i k)) = ix1 k :=
    funext fun a => Fin.ext (by match a with | ⟨0, _⟩ => rfl)
  have e2 : ridx_main_v5 i k = ix2 (i 2) k :=
    funext fun a => Fin.ext (by match a with | ⟨0, _⟩ => rfl | ⟨1, _⟩ => rfl)
  rw [e0, e1, e2]
  rfl

end Cert.ReferenceIdeal.RefValue

end
-- ==== Proof.LibOuterDot.lean ====
/-
  Two readings at an index, for any sizes, at the ideal values.

  * A block u of shape [R, n] and a block x of shape [R, m], each given a unit axis, broadcast against each other to
    [R, n, m], multiplied and flattened to [R, n·m]: entry (p, k) is u(p, k / m) · x(p, k % m) — the row-wise
    Kronecker product.
  * A matrix product [M, K] × [K, N] into a zero accumulator: entry (p, q) is Σ over k < K of A(p, k) · B(k, q), a sum
    over Fin K, given where the dimension numbers send an output index and a contraction index.
-/
import Idealize.ShloMosaic.Lib.ValueIdx
import Idealize.ShloMosaic.Lib.Pipeline.Value
import Idealize.ShloMosaic.PureOps.Ideal.Laws

noncomputable section

open scoped BigOperators

namespace Cert.LibOuterDot

open Idealize.ShloMosaic Idealize.ShloMosaic.ValueIdx

/-- The row-wise Kronecker product read at (p, k): u at column k / m times x at column k % m. -/
theorem outer_flat_apply (R n m N : ℕ) (hn : 1 < n) (hm : 1 < m) (hN : N = n * m)
    (u : (⟨2, ![R, n]⟩ : Shape).Idx → EReal) (x : (⟨2, ![R, m]⟩ : Shape).Idx → EReal)
    (h1 : (⟨2, ![R, n]⟩ : Shape).ShapeCasts ⟨3, ![R, n, 1]⟩)
    (h2 : (⟨2, ![R, m]⟩ : Shape).ShapeCasts ⟨3, ![R, 1, m]⟩)
    (h3 : (⟨3, ![R, n, 1]⟩ : Shape).Broadcasts ⟨3, ![R, n, m]⟩)
    (h4 : (⟨3, ![R, 1, m]⟩ : Shape).Broadcasts ⟨3, ![R, n, m]⟩)
    (h5 : (⟨3, ![R, n, m]⟩ : Shape).ShapeCasts ⟨2, ![R, N]⟩)
    (p : Fin R) (k : Fin N) (a : Fin n) (b : Fin m) (ha : a.val = k.val / m) (hb : b.val = k.val % m) :
    shapeCast ⟨2, ![R, N]⟩ (mulf (F := Ideal) (φ := .f32)
        (broadcastTo ⟨3, ![R, n, m]⟩ (shapeCast ⟨3, ![R, n, 1]⟩ u h1) h3)
        (broadcastTo ⟨3, ![R, n, m]⟩ (shapeCast ⟨3, ![R, 1, m]⟩ x h2) h4)) h5 (ix2 p k)
      = u (ix2 p a) * x (ix2 p b) := by
  subst hN
  refine (shapeCast_apply _ h5 (ix2 p k) (ix3 p a b) ?_).trans ?_
  · rw [Shape.rowMajor_val_three, Shape.rowMajor_val_two]
    show (p.val * n + a.val) * m + b.val = p.val * (n * m) + k.val
    have e : k.val / m * m + k.val % m = k.val := Nat.div_add_mod' _ _
    rw [ha, hb, Nat.add_mul, Nat.mul_assoc, Nat.add_assoc, e]
  · rw [mulf_apply]
    congr 1
    · refine (broadcastTo_apply _ h3 (ix3 p a b) (ix3 p a (0 : Fin 1)) ?_).trans ?_
      · intro ax
        match ax with
        | ⟨0, _⟩ =>
          show p.val = if R = 1 then 0 else p.val
          split
          · have := p.isLt; omega
          · rfl
        | ⟨1, _⟩ =>
          show a.val = if n = 1 then 0 else a.val
          rw [if_neg (by omega)]
        | ⟨2, _⟩ => rfl
      · refine shapeCast_apply u h1 _ (ix2 p a) ?_
        rw [Shape.rowMajor_val_three, Shape.rowMajor_val_two]
        show p.val * n + a.val = (p.val * n + a.val) * 1 + 0
        omega
    · refine (broadcastTo_apply _ h4 (ix3 p a b) (ix3 p (0 : Fin 1) b) ?_).trans ?_
      · intro ax
        match ax with
        | ⟨0, _⟩ =>
          show p.val = if R = 1 then 0 else p.val
          split
          · have := p.isLt; omega
          · rfl
        | ⟨1, _⟩ => rfl
        | ⟨2, _⟩ =>
          show b.val = if m = 1 then 0 else b.val
          rw [if_neg (by omega)]
      · refine shapeCast_apply x h2 _ (ix2 p b) ?_
        rw [Shape.rowMajor_val_three, Shape.rowMajor_val_two]
        show p.val * m + b.val = (p.val * 1 + 0) * m + b.val
        rw [Nat.mul_one, Nat.add_zero]

/-- With no batch axes and one free axis a on the left, the left operand's index has the output's coordinate b there,
    b the first output axis. -/
theorem lhs_free_val {sl sr so : Shape} (d : DotDims sl sr so) (a : Fin sl.rank) (b : Fin so.rank)
    (hlb : d.lhsBatch = []) (hln : d.lhsNonContracting = [a]) (hb : b.val = 0) (j : so.Idx) (k : d.contr.Idx) :
    (d.lhsIdx j k a).val = (j b).val := by
  have hnb : a ∉ d.lhsBatch := by rw [hlb]; exact List.not_mem_nil
  have hmn : a ∈ d.lhsNonContracting := by rw [hln]; exact List.mem_singleton.mpr rfl
  unfold DotDims.lhsIdx
  rw [dif_neg hnb, dif_pos hmn]
  simp only [Fin.val_cast]
  have key : ∀ (p q : Nat) (hp : p < so.rank) (hq : q < so.rank), p = q → (j ⟨p, hp⟩).val = (j ⟨q, hq⟩).val :=
    fun p q hp hq h => by subst h; rfl
  exact key _ _ _ b.isLt (by simp [hlb, hln, hb])

/-- With no batch axes, one free axis on the left and one free axis a on the right, the right operand's index has the
    output's coordinate b there, b the second output axis. -/
theorem rhs_free_val {sl sr so : Shape} (d : DotDims sl sr so) (a : Fin sr.rank) (b : Fin so.rank) (a' : Fin sl.rank)
    (hlb : d.lhsBatch = []) (hrb : d.rhsBatch = []) (hln : d.lhsNonContracting = [a']) (hrn : d.rhsNonContracting = [a])
    (hb : b.val = 1) (j : so.Idx) (k : d.contr.Idx) :
    (d.rhsIdx j k a).val = (j b).val := by
  have hnb : a ∉ d.rhsBatch := by rw [hrb]; exact List.not_mem_nil
  have hmn : a ∈ d.rhsNonContracting := by rw [hrn]; exact List.mem_singleton.mpr rfl
  unfold DotDims.rhsIdx
  rw [dif_neg hnb, dif_pos hmn]
  simp only [Fin.val_cast]
  have key : ∀ (p q : Nat) (hp : p < so.rank) (hq : q < so.rank), p = q → (j ⟨p, hp⟩).val = (j ⟨q, hq⟩).val :=
    fun p q hp hq h => by subst h; rfl
  exact key _ _ _ b.isLt (by simp [hlb, hln, hrn, hb])

/-- A matrix product into the zero accumulator read at (p, q), given where the dimension numbers send the indices:
    the sum over k < K of A(p, k) · B(k, q). -/
theorem matmul_zero_ix2_of {M K N : ℕ} {φ₁ φ₂ : FTy}
    (d : DotDims ⟨2, ![M, K]⟩ ⟨2, ![K, N]⟩ ⟨2, ![M, N]⟩) (hr : d.contr.rank = 1) (hs : d.contr.size ⟨0, by omega⟩ = K)
    (l0 : ∀ i q, (d.lhsIdx i q 0).val = (i 0).val) (l1 : ∀ i q, (d.lhsIdx i q 1).val = (q ⟨0, by omega⟩).val)
    (r0 : ∀ i q, (d.rhsIdx i q 0).val = (q ⟨0, by omega⟩).val) (r1 : ∀ i q, (d.rhsIdx i q 1).val = (i 1).val)
    (prec : Option ContractPrecision) (A : FVec Ideal ⟨2, ![M, K]⟩ φ₁) (B : FVec Ideal ⟨2, ![K, N]⟩ φ₂) (p : Fin M) (q : Fin N) :
    matmul d prec A B (constant ⟨2, ![M, N]⟩ .f32 0x00000000#32) (ix2 p q) = ∑ k : Fin K, A (ix2 p k) * B (ix2 k q) := by
  simp only [matmul]
  rw [Ideal.matmul_constant_zero_apply, ← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact l0 _ _
    | ⟨1, _⟩ => exact (l1 _ _).trans hk)
  have er : d.rhsIdx (ix2 p q) ((contrEquiv1 d K hr hs).symm k) = ix2 k q := funext fun a => Fin.ext (by
    match a with
    | ⟨0, _⟩ => exact (r0 _ _).trans hk
    | ⟨1, _⟩ => exact r1 _ _)
  rw [el, er]

/-- A plain matrix product — left operand contracted on its second axis, right on its first, no batch axes — into
    the zero accumulator, read at (p, q): the sum over k < K of A(p, k) · B(k, q). -/
theorem matmul_zero_ix2 {M K N : ℕ} {φ₁ φ₂ : FTy}
    (d : DotDims ⟨2, ![M, K]⟩ ⟨2, ![K, N]⟩ ⟨2, ![M, N]⟩) (hr : d.contr.rank = 1) (hs : d.contr.size ⟨0, by omega⟩ = K)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (A : FVec Ideal ⟨2, ![M, K]⟩ φ₁) (B : FVec Ideal ⟨2, ![K, N]⟩ φ₂) (p : Fin M) (q : Fin N) :
    matmul d prec A B (constant ⟨2, ![M, N]⟩ .f32 0x00000000#32) (ix2 p q) = ∑ k : Fin K, A (ix2 p k) * B (ix2 k q) :=
  matmul_zero_ix2_of d hr hs
    (fun i q => lhs_free_val d 0 0 hlb hln rfl i q)
    (fun i q => d.lhsIdx_val_of_single hlc i q)
    (fun i q => d.rhsIdx_val_of_single hrc i q)
    (fun i q => rhs_free_val d 1 1 0 hlb hrb hln hrn rfl i q)
    prec A B p q

end Cert.LibOuterDot

end
-- ==== Proof.BodyCosProj.lean ====
/-
  What the kernel body computes from its three blocks, read at one entry. The body adds the one row of θ to every row
  of the 1024 × 8 block of live features, takes cosines, and multiplies by the 8 × 1024 block of the transposed W
  into a zero accumulator; the two roundings to a shorter float format are the identity on the extended reals. So
  entry (p, q) of the 1024 × 1024 result is the sum over k < 8 of cos (x(p, k) + θ(0, k)) · wt(k, q).
-/
import proofs.«180665_j65481071397690_1_alg».proof.Proof.Gen.KernelIdeal.Skeleton
import proofs.«180665_j65481071397690_1_alg».proof.Proof.LibOuterDot
import Idealize.ShloMosaic.Lib.ValueLayout

noncomputable section

open scoped BigOperators

namespace Cert.KernelIdeal.Body

open Cert.KernelIdeal Cert.KernelIdeal.Gen Idealize.ShloMosaic Idealize.ShloMosaic.ValueIdx

/-- The stored value at (p, q). -/
theorem pay_apply (x0 : Vec Ideal S1024x8 .f32) (x1 : Vec Ideal S1x8 .f32) (x2 : Vec Ideal S8x1024 .f32)
    (p : Fin 1024) (q : Fin 1024) :
    k0_pay1 (F := Ideal) x0 x1 x2 (ix2 p q)
      = ∑ k : Fin 8, Ideal.cos (x0 (ix2 p k) + x1 (ix2 (0 : Fin 1) k)) * x2 (ix2 k q) := by
  unfold k0_pay1
  refine (Cert.LibOuterDot.matmul_zero_ix2 dot_S1024x8_S8x1024_S1024x1024_1_0_0_1_n_n rfl rfl rfl rfl rfl rfl rfl rfl
    none _ _ p q).trans ?_
  refine Finset.sum_congr rfl fun k _ => ?_
  show Ideal.cos (shapeCast S1024x8 x0 shapeCasts_S1024x8_S1024x8 (ix2 p k)
        + broadcastTo S1024x8 (shapeCast S1x8 x1 shapeCasts_S1x8_S1x8) broadcasts_S1x8_S1024x8 (ix2 p k))
      * shapeCast S8x1024 x2 shapeCasts_S8x1024_S8x1024 (ix2 k q) = _
  rw [broadcastTo_1b_ab_apply, shapeCast_self, shapeCast_self, shapeCast_self]

end Cert.KernelIdeal.Body

end
-- ==== Proof.KernelCosProj.lean ====
/-
  The kernel's run, read as a value. The grid has 16 points; point t stages rows 1024·t … 1024·t + 1023 of the
  flattened live features, the one row of θ and the whole transposed W, and writes back rows 1024·t … of the
  16384 × 1024 output. By the body's reading, what point t writes back is block t of `rowProj` of the three arrays
  the region finds; the 16 blocks tile the output, so the output array after the region is `rowProj` of them. The
  arrays the region finds are the host's re-layings of the arguments (slice and flatten, add a unit axis, transpose),
  and the host's last reshape splits the rows back into (b, s): the result is `proj` of the arguments.
-/
import proofs.«180665_j65481071397690_1_alg».proof.Proof.Gen.KernelIdeal.Frame
import proofs.«180665_j65481071397690_1_alg».proof.Proof.BodyCosProj
import proofs.«180665_j65481071397690_1_alg».proof.Proof.CosProj
import Idealize.ShloMosaic.Lib.Pipeline.Value
import Idealize.ShloMosaic.Lib.StableHlo.Run

noncomputable section

open scoped BigOperators

namespace Cert.KernelIdeal.RunValue

open Cert.KernelIdeal Cert.KernelIdeal.Gen Idealize.ShloMosaic Idealize.ShloMosaic.TcCoe Idealize.SL.Sem
open Idealize.ShloMosaic.ValueIdx Cert.CosProj
open Idealize.ShloMosaic.Pipeline (Dat)

/-- One entry of the body's result against one entry of the row form, given where the three blocks sit in their arrays. -/
theorem pay_eq_rowProj (A1 : S16384x8.Idx → EReal) (A2 : S1x8.Idx → EReal) (A3 : S8x1024.Idx → EReal)
    (x0 : Vec Ideal S1024x8 .f32) (x1 : Vec Ideal S1x8 .f32) (x2 : Vec Ideal S8x1024 .f32)
    (j : S1024x1024.Idx) (i : S16384x1024.Idx)
    (h0 : ∀ k : Fin 8, x0 (ix2 (j 0) k) = A1 (ix2 (i 0) k))
    (h1 : ∀ k : Fin 8, x1 (ix2 (0 : Fin 1) k) = A2 (ix2 (0 : Fin 1) k))
    (h2 : ∀ k : Fin 8, x2 (ix2 k (j 1)) = A3 (ix2 k (i 1))) :
    k0_pay1 (F := Ideal) x0 x1 x2 j = rowProj A1 A2 A3 i := by
  rw [eq_ix2 j]
  refine (Body.pay_apply x0 x1 x2 (j 0) (j 1)).trans ?_
  show _ = rowProjAt A1 A2 A3 (i 0) (i 1)
  unfold rowProjAt
  exact Finset.sum_congr rfl fun k _ => by rw [h0 k, h1 k, h2 k]

variable (m : (ℓ : Loc nD τ sig) → Buf (Elt Ideal) ℓ) (ρ : Dev nD → PrngReg)

theorem origin_eq_zero : (![0, 0] : Fin 2 → Nat) = fun _ => 0 := funext fun a => by fin_cases a <;> rfl

/-- The printed index maps over the 16 points: the features' and the output's row block is t, everything else block 0. -/
theorem block_indices : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- What point t writes back is block t of the row form of the arrays the region finds. -/
theorem writes_back_rowProj (c : Dev nD) (t : Fin cfg0.N) :
    (dats m 0 c).flushed 3 t
      = ((cfg0.win 3).blk t).view.read (Elt Ideal) (rowProj (V m c main_v1) (V m c main_v2) (V m c main_v3)) := by
  show (cfg0.win 3).cut (grid0.coords t) ((dats m 0 c).after 3 t) = _
  rw [after0_3]
  unfold out0_3
  rw [View.canon_unit_zero origin_eq_zero]
  simp only [View.ld_unit_zero (S := S1024x8) origin_eq_zero, View.ld_unit_zero (S := S1x8) origin_eq_zero, View.ld_unit_zero (S := S8x1024) origin_eq_zero]
  obtain ⟨e0, e1, e2, e3, e4, e5, e6, e7⟩ := block_indices t
  funext j
  show k0_pay1 (F := Ideal) (iblk m c 0 t) (iblk m c 1 t) (iblk m c 2 t) j
    = rowProj (V m c main_v1) (V m c main_v2) (V m c main_v3) (((cfg0.win 3).blk t).view.emb j)
  refine pay_eq_rowProj (V m c main_v1) (V m c main_v2) (V m c main_v3) (iblk m c 0 t) (iblk m c 1 t) (iblk m c 2 t) j
    (((cfg0.win 3).blk t).view.emb j) (fun k => ?_) (fun k => ?_) (fun k => ?_)
  · show V m c main_v1 (((cfg0.win 0).blk t).view.emb (ix2 (j 0) k)) = _
    refine congrArg (V m c main_v1) (funext fun a => Fin.ext ?_)
    match a with
    | ⟨0, _⟩ => show win0_0.index t (0 : Fin 2) * 1024 + 1 * (j 0).val = win0_3.index t (0 : Fin 2) * 1024 + 1 * (j 0).val; omega
    | ⟨1, _⟩ => show win0_0.index t (1 : Fin 2) * 8 + 1 * k.val = k.val; omega
  · show V m c main_v2 (((cfg0.win 1).blk t).view.emb (ix2 (0 : Fin 1) k)) = _
    refine congrArg (V m c main_v2) (funext fun a => Fin.ext ?_)
    match a with
    | ⟨0, _⟩ => show win0_1.index t (0 : Fin 2) * 1 + 1 * 0 = 0; omega
    | ⟨1, _⟩ => show win0_1.index t (1 : Fin 2) * 8 + 1 * k.val = k.val; omega
  · show V m c main_v3 (((cfg0.win 2).blk t).view.emb (ix2 k (j 1))) = _
    refine congrArg (V m c main_v3) (funext fun a => Fin.ext ?_)
    match a with
    | ⟨0, _⟩ => show win0_2.index t (0 : Fin 2) * 8 + 1 * k.val = k.val; omega
    | ⟨1, _⟩ => show win0_2.index t (1 : Fin 2) * 1024 + 1 * (j 1).val = win0_3.index t (1 : Fin 2) * 1024 + 1 * (j 1).val; omega

/-- An output index is in point t's block iff each coordinate is in the block's range. -/
theorem mem_rowBlock (t : Fin cfg0.N) (i : S16384x1024.Idx) :
    i ∈ ((cfg0.win 3).blk t).view.set ↔ ∀ a : Fin 2, win0_3.index t a * S1024x1024.size a ≤ (i a).val
      ∧ (i a).val < win0_3.index t a * S1024x1024.size a + S1024x1024.size a := by
  show i ∈ ((View.whole main_v4).slice (win0_3.rect t)).set ↔ _
  rw [View.set_slice_whole, Rect.mem_set_unit]
  exact Iff.rfl

/-- Every output index is in the block of the point its row falls to: row r belongs to point r / 1024. -/
theorem rows_tile (i : S16384x1024.Idx) :
    ∃ t : Fin cfg0.N, (cfg0.win 3).flush t = true ∧ i ∈ ((cfg0.win 3).blk t).view.set := by
  have hi0 : (i 0).val < 16384 := (i 0).isLt
  have hi1 : (i 1).val < 1024 := (i 1).isLt
  obtain ⟨t, ht⟩ : ∃ t : Fin cfg0.N, t.val = (i 0).val / 1024 :=
    ⟨⟨(i 0).val / 1024, by show _ < grid0.N; rw [N_0]; omega⟩, rfl⟩
  obtain ⟨e0, e1, e2, e3, e4, e5, e6, e7⟩ := block_indices t
  refine ⟨t, flush0_3 t, ?_⟩
  rw [mem_rowBlock]
  intro a
  match a with
  | ⟨0, _⟩ => show win0_3.index t (0 : Fin 2) * 1024 ≤ (i 0).val ∧ (i 0).val < win0_3.index t (0 : Fin 2) * 1024 + 1024; omega
  | ⟨1, _⟩ => show win0_3.index t (1 : Fin 2) * 1024 ≤ (i 1).val ∧ (i 1).val < win0_3.index t (1 : Fin 2) * 1024 + 1024; omega

/-- The output array after the region. -/
theorem output_eq_rowProj (c : Dev nD) :
    (dats m 0 c).arrAt 3 cfg0.N = rowProj (V m c main_v1) (V m c main_v2) (V m c main_v3) :=
  (dats m 0 c).arrAt_eq_of_cover 3 (rowProj (V m c main_v1) (V m c main_v2) (V m c main_v3))
    (fun t _ => writes_back_rowProj m c t) rows_tile

/-- The flattened live features, as the region finds them. -/
theorem rows_eq (c : Dev nD) : (V m c main_v1 : S16384x8.Idx → EReal)
    = shapeCast S16384x8 (extractStridedSlice S4x4096x8 ![0, 0, 0] (m ((c : Thread nD τ).loc main_arg0))
        slices_S4x4096x1024_S4x4096x8_0_0_0) shapeCasts_S4x4096x8_S16384x8 := by
  show StableHlo.after hostOps0 (fun b => m (c, b)) (Proc.devRef .tc main_v1) = _
  after_results
  rfl

/-- θ as one row. -/
theorem theta_eq (c : Dev nD) : (V m c main_v2 : S1x8.Idx → EReal)
    = shapeCast S1x8 (m ((c : Thread nD τ).loc main_arg1)) shapeCasts_S8_S1x8 := by
  show StableHlo.after hostOps0 (fun b => m (c, b)) (Proc.devRef .tc main_v2) = _
  after_results
  rfl

/-- W transposed. -/
theorem wt_eq (c : Dev nD) : (V m c main_v3 : S8x1024.Idx → EReal)
    = transpose S8x1024 [1, 0] (m ((c : Thread nD τ).loc main_arg2)) transposes_S1024x8_S8x1024_1_0 := by
  show StableHlo.after hostOps0 (fun b => m (c, b)) (Proc.devRef .tc main_v3) = _
  after_results

/-- The result buffer after the host's last reshape. -/
theorem result_eq (c : Dev nD) :
    Pipeline.afterTail₀ cfgs (dats m) 0 (V0 m) [hostOps1] c main_v5
      = proj (m ((c : Thread nD τ).loc main_arg0)) (m ((c : Thread nD τ).loc main_arg1)) (m ((c : Thread nD τ).loc main_arg2)) := by
  unfold Pipeline.afterTail₀
  show StableHlo.after hostOps1 _ (Proc.devRef .tc main_v5) = _
  after_results
  have hout : Pipeline.withArrays (cfgs 0).spec c (V0 m c) (fun w => (dats m 0 c).arrAt w (cfgs 0).N) (Proc.devRef .tc main_v4)
      = rowProj (V m c main_v1) (V m c main_v2) (V m c main_v3) :=
    (Pipeline.withArrays_arr spec0 launch0.win.arr_inj c _ _ 3).trans (output_eq_rowProj m c)
  rw [hout, rows_eq, theta_eq, wt_eq]
  exact reshape_rowProj _ _ _ _ _ _ _ _

/-- Every weakly fair execution of the kernel program ends with the result buffer at `proj` of the arguments as
    launched, and the arguments unchanged. -/
theorem run : θ_run defs (onTc (τ := τ) (main (F := Ideal))) ⟨m, fun _ => 0, ρ⟩ fun r => ∀ c : Dev nD,
      r.2.mem ((c.tc : Thread nD τ).loc main_v5)
        = proj (m ((c : Thread nD τ).loc main_arg0)) (m ((c : Thread nD τ).loc main_arg1)) (m ((c : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
      ⟨((h c).2 main_v5 (Pipeline.mem_restRefs_of main_v5 (by decide) (by decide))).trans (result_eq m c),
       ((h c).2 main_arg0 (Pipeline.mem_restRefs_of main_arg0 (by decide) (by decide))).trans (W_main_arg0 m (dats m) c),
       ((h c).2 main_arg1 (Pipeline.mem_restRefs_of main_arg1 (by decide) (by decide))).trans (W_main_arg1 m (dats m) c),
       ((h c).2 main_arg2 (Pipeline.mem_restRefs_of main_arg2 (by decide) (by decide))).trans (W_main_arg2 m (dats m) c)⟩)
    (run_main m ρ)

end Cert.KernelIdeal.RunValue

end
-- ==== Proof.lean ====
/-
  The kernel projects each token's first 8 features through a cosine layer: for token (b, s) and output feature e,

      out[b, s, e] = Σ_{k < 8} cos (x[b, s, k] + θ[k]) · W[e, k].

  The kernel slices and flattens the tokens on the host, runs a 16-point grid whose body is one 1024 × 8 by 8 × 1024
  matrix product of the cosines with the transposed W (the roundings to a shorter float format are the identity on
  the extended reals), and splits the rows back; the reference is the same cosine followed by an einsum. On the
  extended reals both are the sum above, term by term in the same order, so no law of arithmetic and no use of the
  inputs' finiteness is needed. The ideal pass rewrote nothing, so the idealization claim is trivial.

  The frames of the two kernel programs are the generated ones; the reference's frame is its generated run with the
  result dropped. The value claim puts the kernel's run (Proof/KernelCosProj.lean: the body at an entry, the 16 blocks
  tiling the output, the host's re-layings) beside the reference's run read one operation at a time
  (Proof/RefCosProj.lean), both at the array `proj` of Proof/CosProj.lean.
-/
import proofs.«180665_j65481071397690_1_alg».proof.Defs
import proofs.«180665_j65481071397690_1_alg».proof.Proof.Gen.Kernel
import proofs.«180665_j65481071397690_1_alg».proof.Proof.Gen.Kernel.Skeleton
import proofs.«180665_j65481071397690_1_alg».proof.Proof.Gen.Kernel.Launch
import proofs.«180665_j65481071397690_1_alg».proof.Proof.Gen.Kernel.Points
import proofs.«180665_j65481071397690_1_alg».proof.Proof.Gen.Kernel.Frame
import proofs.«180665_j65481071397690_1_alg».proof.Proof.Gen.KernelIdeal
import proofs.«180665_j65481071397690_1_alg».proof.Proof.Gen.KernelIdeal.Skeleton
import proofs.«180665_j65481071397690_1_alg».proof.Proof.Gen.KernelIdeal.Launch
import proofs.«180665_j65481071397690_1_alg».proof.Proof.Gen.KernelIdeal.Points
import proofs.«180665_j65481071397690_1_alg».proof.Proof.Gen.KernelIdeal.Frame
import proofs.«180665_j65481071397690_1_alg».proof.Proof.Gen.ReferenceIdeal
import proofs.«180665_j65481071397690_1_alg».proof.Proof.Gen.ReferenceIdeal.Run
import proofs.«180665_j65481071397690_1_alg».proof.Proof.Gen.ReferenceIdeal.Read
import proofs.«180665_j65481071397690_1_alg».proof.Proof.Gen.Pre_finite_inputs
import proofs.«180665_j65481071397690_1_alg».proof.Proof.RefCosProj
import proofs.«180665_j65481071397690_1_alg».proof.Proof.KernelCosProj
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- Both programs end with the result buffer at `proj` of the arguments: the kernel's run and the reference's run,
    the reference's arguments rewritten to the kernel's by their agreement. -/
theorem algebraic : Cert.algebraic_KernelIdeal_ReferenceIdeal := by
  intro m ρ m' ρ' _ hagree
  refine ⟨fun c => Cert.CosProj.proj
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.RunValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v5_eq, Cert.ReferenceIdeal.RefValue.val_eq_proj,
    (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
